-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S1x1024 : Shape := ⟨2, ![1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S2x2048x16x64, .f32⟩
  | .hbm, ⟨11, _⟩ => ⟨S2x16x2048x64, .f32⟩
  | .hbm, ⟨12, _⟩ => ⟨S32x2048x64, .f32⟩
  | .hbm, ⟨13, _⟩ => ⟨S2x2048x16x64, .f32⟩
  | .hbm, ⟨14, _⟩ => ⟨S2x16x2048x64, .f32⟩
  | .hbm, ⟨15, _⟩ => ⟨S32x2048x64, .f32⟩
  | .hbm, ⟨16, _⟩ => ⟨S2x2048x16x64, .f32⟩
  | .hbm, ⟨17, _⟩ => ⟨S2x16x2048x64, .f32⟩
  | .hbm, ⟨18, _⟩ => ⟨S32x2048x64, .f32⟩
  | .hbm, ⟨19, _⟩ => ⟨S32x2048x64, .f32⟩
  | .hbm, ⟨20, _⟩ => ⟨S2x16x2048x64, .f32⟩
  | .hbm, ⟨21, _⟩ => ⟨S2x2048x16x64, .f32⟩
  | .hbm, ⟨22, _⟩ => ⟨S4096x1024, .f32⟩
  | .hbm, ⟨23, _⟩ => ⟨S4096x1024, .f32⟩
  | .hbm, ⟨24, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S1x512x64, .f32⟩
  | .local _ .vmem, ⟨9, _⟩ => ⟨S1x512x64, .f32⟩
  | .local _ .vmem, ⟨10, _⟩ => ⟨S1x2048x64, .f32⟩
  | .local _ .vmem, ⟨11, _⟩ => ⟨S1x2048x64, .f32⟩
  | .local _ .vmem, ⟨12, _⟩ => ⟨S1x2048x64, .f32⟩
  | .local _ .vmem, ⟨13, _⟩ => ⟨S1x2048x64, .f32⟩
  | .local _ .vmem, ⟨14, _⟩ => ⟨S1x512x64, .f32⟩
  | .local _ .vmem, ⟨15, _⟩ => ⟨S1x512x64, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S3072.size a
  hwx0_2 : ∀ i : grid0.Coords, EltTy.bits .f32 = 32 ∨ (Rect.block (s := S3072) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .f32 = 32 ∨ (Rect.block (s := S4096x3072) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .f32 = 32 ∨ (Rect.block (s := S32x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.HostFold.lean ====
import proofs.«108650_j15891378995335_1_alg».proof.Proof.Gen.KernelIdeal.Frame
import Idealize.ShloMosaic.Lib.StableHlo.Run
import Idealize.ShloMosaic.PureOps.Ideal

/-!
The buffers at the boundaries between the program's host stretches and its three regions, read back.

Before the first region the input is reshaped to 4096 rows. Between the first and the second region the fused
projection's three column blocks are each sliced out, reshaped to heads, transposed and flattened. Between the second and
the third region the attention output is unflattened, transposed back and reshaped to rows. After the third region the
rows are reshaped to the result. No host operation and no region writes an argument, so the weights and biases reach
the regions as launched.
-/

set_option maxRecDepth 16384

noncomputable section

namespace Cert.KernelIdeal.Fold

open Cert.KernelIdeal Cert.KernelIdeal.Gen Idealize.ShloMosaic Idealize.ShloMosaic.TcCoe
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## Entering the first region -/

theorem V1_main_v0 (c : Dev nD) :
    V1 m ρ c main_v0 = shapeCast S4096x1024 (m ((c : Thread nD τ).loc main_arg0)) shapeCasts_S2x2048x1024_S4096x1024 := by
  show StableHlo.after hostOps0 (W0 m ρ c) (Proc.devRef .tc main_v0) = _
  after_results
  rfl

theorem V1_main_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V1_main_arg2 (c : Dev nD) : V1 m ρ c main_arg2 = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## Entering the second region -/

theorem V3_main_v7 (c : Dev nD) :
    V3 m ρ c main_v7 = shapeCast S32x2048x64 (transpose S2x16x2048x64 [0, 2, 1, 3]
      (shapeCast S2x2048x16x64 (extractStridedSlice S4096x1024 ![0, 0] ((dat0 (V1 m ρ) c).arrAt 3 cfg0.N) slices_S4096x3072_S4096x1024_0_0)
        shapeCasts_S4096x1024_S2x2048x16x64) transposes_S2x2048x16x64_S2x16x2048x64_0_2_1_3) shapeCasts_S2x16x2048x64_S32x2048x64 := by
  rw [← W2_arr m ρ c 3]
  show StableHlo.after hostOps1 (W2 m ρ c) (Proc.devRef .tc main_v7) = _
  after_results
  rfl

theorem V3_main_v10 (c : Dev nD) :
    V3 m ρ c main_v10 = shapeCast S32x2048x64 (transpose S2x16x2048x64 [0, 2, 1, 3]
      (shapeCast S2x2048x16x64 (extractStridedSlice S4096x1024 ![0, 1024] ((dat0 (V1 m ρ) c).arrAt 3 cfg0.N) slices_S4096x3072_S4096x1024_0_1024)
        shapeCasts_S4096x1024_S2x2048x16x64) transposes_S2x2048x16x64_S2x16x2048x64_0_2_1_3) shapeCasts_S2x16x2048x64_S32x2048x64 := by
  rw [← W2_arr m ρ c 3]
  show StableHlo.after hostOps1 (W2 m ρ c) (Proc.devRef .tc main_v10) = _
  after_results
  rfl

theorem V3_main_v13 (c : Dev nD) :
    V3 m ρ c main_v13 = shapeCast S32x2048x64 (transpose S2x16x2048x64 [0, 2, 1, 3]
      (shapeCast S2x2048x16x64 (extractStridedSlice S4096x1024 ![0, 2048] ((dat0 (V1 m ρ) c).arrAt 3 cfg0.N) slices_S4096x3072_S4096x1024_0_2048)
        shapeCasts_S4096x1024_S2x2048x16x64) transposes_S2x2048x16x64_S2x16x2048x64_0_2_1_3) shapeCasts_S2x16x2048x64_S32x2048x64 := by
  rw [← W2_arr m ρ c 3]
  show StableHlo.after hostOps1 (W2 m ρ c) (Proc.devRef .tc main_v13) = _
  after_results
  rfl

/-! ## Entering the third region -/

theorem V5_main_v17 (c : Dev nD) :
    V5 m ρ c main_v17 = shapeCast S4096x1024 (transpose S2x2048x16x64 [0, 2, 1, 3]
      (shapeCast S2x16x2048x64 ((dat1 (V3 m ρ) c).arrAt 3 cfg1.N) shapeCasts_S32x2048x64_S2x16x2048x64)
      transposes_S2x16x2048x64_S2x2048x16x64_0_2_1_3) shapeCasts_S2x2048x16x64_S4096x1024 := by
  rw [← W4_arr m ρ c 3]
  show StableHlo.after hostOps2 (W4 m ρ c) (Proc.devRef .tc main_v17) = _
  after_results
  rfl

theorem V5_main_arg3 (c : Dev nD) : V5 m ρ c main_arg3 = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem V5_main_arg4 (c : Dev nD) : V5 m ρ c main_arg4 = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The result -/

theorem W7_main_v19 (c : Dev nD) :
    W7 m ρ c (Proc.devRef .tc main_v19) = shapeCast S2x2048x1024 ((dat2 (V5 m ρ) c).arrAt 3 cfg2.N) shapeCasts_S4096x1024_S2x2048x1024 := by
  rw [← W6_arr m ρ c 3]
  show StableHlo.after hostOps3 (W6 m ρ c) (Proc.devRef .tc main_v19) = _
  after_results
  rfl

end Cert.KernelIdeal.Fold

end
-- ==== Proof.LinearPayload.lean ====
import proofs.«108650_j15891378995335_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The projection kernels' body at an index. The body loads a `512 × 1024` block of rows, the `1024 × 1024` block of
the weight matrix and `1024` bias entries, and stores the rows times the block plus the bias row. Over the extended
reals the two narrowings to bf16 are the identity and the product into a zero accumulator is the plain sum, so entry
`(p, q)` of what is stored is `(∑ k, rows (p, k) · weights (k, q)) + bias q`.
-/

noncomputable section

namespace Cert.KernelIdeal.Payload

open Cert.KernelIdeal Cert.KernelIdeal.Gen Idealize.ShloMosaic Idealize.ShloMosaic.ValueIdx

/-! ## The product's operand indices: row `p` and contraction `k` on the left, `k` and column `q` on the right -/

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at `(p, q)`: the sum over the shared axis. -/
theorem proj_matmul_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- The bias row, cast to one row and repeated down the block, at `(p, q)`. -/
theorem proj_bias_apply (x2 : Vec Ideal S1024 .f32) (p : Fin 512) (q : Fin 1024) :
    broadcastTo S512x1024 (shapeCast S1x1024 x2 shapeCasts_S1024_S1x1024) broadcasts_S1x1024_S512x1024 (ix2 p q) = x2 (ix1 q) := by
  rw [broadcastTo_1b_ab_apply, shapeCast_a_1a_apply]

/-- Region 0's body at `(p, q)`. -/
theorem k0_pay1_apply (x0 : Vec Ideal S512x1024 .f32) (x1 : Vec Ideal S1024x1024 .f32) (x2 : Vec Ideal S1024 .f32) (p : Fin 512) (q : Fin 1024) :
    k0_pay1 (F := Ideal) x0 x1 x2 (ix2 p q) = (∑ k : Fin 1024, x0 (ix2 p k) * x1 (ix2 k q)) + x2 (ix1 q) := by
  unfold k0_pay1
  rw [addf_apply, proj_matmul_apply, proj_bias_apply, shapeCast_self]
  rfl

/-- Region 2's body at `(p, q)`: the same function. -/
theorem k2_pay1_apply (x0 : Vec Ideal S512x1024 .f32) (x1 : Vec Ideal S1024x1024 .f32) (x2 : Vec Ideal S1024 .f32) (p : Fin 512) (q : Fin 1024) :
    k2_pay1 (F := Ideal) x0 x1 x2 (ix2 p q) = (∑ k : Fin 1024, x0 (ix2 p k) * x1 (ix2 k q)) + x2 (ix1 q) := by
  unfold k2_pay1
  rw [addf_apply, proj_matmul_apply, proj_bias_apply, shapeCast_self]
  rfl

end Cert.KernelIdeal.Payload

end
-- ==== Proof.Spec.lean ====
import Idealize.ShloMosaic.PureOps.Ideal
import Idealize.ShloMosaic.Lib.ValueIdx

/-!
The whole-array functions the program's regions compute, over the extended reals, index by index.

* `linear x w b`: the rows of `x` times the matrix `w`, plus the bias row `b`:
  entry `(r, f)` is `(∑ k, x (r, k) · w (k, f)) + b f`.
* `attend q k v scale bot`: for every head `g` (batch and head flattened), query row `s` and feature `d`,
  `∑ j, p (g, s, j) · v (g, j, d)`, where `p` is the softmax over the key rows `j` of the scaled scores
  `(∑ e, q (g, s, e) · k (g, j, e)) · scale`: the exponential of the score less its row's maximum, over the sum of
  those exponentials. The number of query rows and of key rows may differ (a block of queries against all keys).
  `scale` and `bot` are the values of two literals of the program: the score scale and the maximum's starting value.
-/

noncomputable section

namespace Cert.Attn

open Idealize.ShloMosaic Idealize.ShloMosaic.ValueIdx

/-- Rows times a matrix, plus a bias row. -/
def linear {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 ⟨(i 0).val, (i 0).isLt⟩ k) * w (ix2 k ⟨(i 1).val, (i 1).isLt⟩)) + b (ix1 ⟨(i 1).val, (i 1).isLt⟩)

theorem linear_apply {M K N : Nat} (x : (⟨2, ![M, K]⟩ : Shape).Idx → EReal) (w : (⟨2, ![K, N]⟩ : Shape).Idx → EReal)
    (b : (⟨1, ![N]⟩ : Shape).Idx → EReal) (r : Fin M) (f : Fin N) :
    linear x w b (ix2 r f) = (∑ k : Fin K, x (ix2 r k) * w (ix2 k f)) + b (ix1 f) := rfl

/-- The value of the score scale's literal, `2⁻³` as a binary32 pattern. -/
abbrev scaleLit : EReal := Ideal.ofBits .f32 0x3E000000#32
/-- The value of the maximum's starting literal, the binary32 pattern of minus infinity. -/
abbrev botLit : EReal := Ideal.ofBits .f32 0xFF800000#32

section Attend
variable {G Sq Sk D : Nat} (q : (⟨3, ![G, Sq, D]⟩ : Shape).Idx → EReal) (k v : (⟨3, ![G, Sk, D]⟩ : Shape).Idx → EReal)

/-- The scaled score of query row `s` against key row `j` in head `g`. -/
def score (scale : EReal) (g : Fin G) (s : Fin Sq) (j : Fin Sk) : EReal :=
  (∑ e : Fin D, q (ix3 g s e) * k (ix3 g j e)) * scale

/-- The row's maximum, taken from `bot`. -/
def rowMax (scale bot : EReal) (g : Fin G) (s : Fin Sq) : EReal :=
  max bot ((Finset.univ : Finset (Fin Sk)).fold max bot (fun j => score q k scale g s j))

/-- The exponential of a score less its row's maximum. -/
def expo (scale bot : EReal) (g : Fin G) (s : Fin Sq) (j : Fin Sk) : EReal :=
  Ideal.exp (score q k scale g s j - rowMax q k scale bot g s)

/-- The softmax weight. -/
def prob (scale bot : EReal) (g : Fin G) (s : Fin Sq) (j : Fin Sk) : EReal :=
  Ideal.div (expo q k scale bot g s j) (∑ j' : Fin Sk, expo q k scale bot g s j')

/-- Attention: the weights times the values. -/
def attend (scale bot : EReal) : (⟨3, ![G, Sq, D]⟩ : Shape).Idx → EReal :=
  fun i => ∑ j : Fin Sk, prob q k scale bot ⟨(i 0).val, (i 0).isLt⟩ ⟨(i 1).val, (i 1).isLt⟩ j
    * v (ix3 ⟨(i 0).val, (i 0).isLt⟩ j ⟨(i 2).val, (i 2).isLt⟩)

theorem attend_apply (scale bot : EReal) (g : Fin G) (s : Fin Sq) (d : Fin D) :
    attend q k v scale bot (ix3 g s d) = ∑ j : Fin Sk, prob q k scale bot g s j * v (ix3 g j d) := rfl

end Attend

/-- Attention reads only one query row, and the key and value rows of one head: two settings that agree on those
    give the same entry. (A block of query rows against a head's keys and values is a restriction of the whole
    arrays.) -/
theorem attend_congr {G G' Sq Sq' Sk D : Nat}
    (q : (⟨3, ![G, Sq, D]⟩ : Shape).Idx → EReal) (k v : (⟨3, ![G, Sk, D]⟩ : Shape).Idx → EReal)
    (q' : (⟨3, ![G', Sq', D]⟩ : Shape).Idx → EReal) (k' v' : (⟨3, ![G', Sk, D]⟩ : Shape).Idx → EReal)
    (scale bot : EReal) (g : Fin G) (s : Fin Sq) (g' : Fin G') (s' : Fin Sq')
    (hq : ∀ e : Fin D, q (ix3 g s e) = q' (ix3 g' s' e))
    (hk : ∀ (j : Fin Sk) (e : Fin D), k (ix3 g j e) = k' (ix3 g' j e))
    (hv : ∀ (j : Fin Sk) (d : Fin D), v (ix3 g j d) = v' (ix3 g' j d)) (d : Fin D) :
    attend q k v scale bot (ix3 g s d) = attend q' k' v' scale bot (ix3 g' s' d) := by
  rw [attend_apply, attend_apply]
  have hs : ∀ j : Fin Sk, score q k scale g s j = score q' k' scale g' s' j := fun j => by
    unfold score; simp only [hq, hk]
  have hm : rowMax q k scale bot g s = rowMax q' k' scale bot g' s' := by
    unfold rowMax; simp only [hs]
  have he : ∀ j : Fin Sk, expo q k scale bot g s j = expo q' k' scale bot g' s' j := fun j => by
    unfold expo; rw [hs, hm]
  have hp : ∀ j : Fin Sk, prob q k scale bot g s j = prob q' k' scale bot g' s' j := fun j => by
    unfold prob; simp only [he]
  simp only [hp, hv]

end Cert.Attn

end
-- ==== Proof.ProjQkv.lean ====
import proofs.«108650_j15891378995335_1_alg».proof.Proof.Gen.KernelIdeal.Frame
import proofs.«108650_j15891378995335_1_alg».proof.Proof.LinearPayload
import proofs.«108650_j15891378995335_1_alg».proof.Proof.Spec

/-!
The first region: the fused query, key and value projection. Its grid is 8 row blocks by 3 column blocks; point
`(i, j)` reads rows `512 i … 512 i + 511` of the flattened input, columns `1024 j … 1024 j + 1023` of the weight
matrix and of the bias, and writes that block of the `4096 × 3072` result. Each block is the restriction of one
function of the whole arrays — rows times weights plus bias — and the 24 blocks tile the result, so the array after
the region is that function.
-/

set_option maxRecDepth 16384

noncomputable section

namespace Cert.KernelIdeal.Qkv

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The region's array after the run, as one function of the arrays the region is entered with. -/
abbrev whole (c : Dev nD) : S4096x3072.Idx → EReal :=
  Cert.Attn.linear (M := 4096) (K := 1024) (N := 3072) (V c main_v0) (V c main_arg1) (V c main_arg2)

/-- The printed index maps over the grid: the row block of the input rows is the output's, the column block of the
    weights and of the bias is the output's, the other block indices are zero, and the output's stay in range. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 1) = win0_3.index t (1 : Fin 2)
    ∧ win0_3.index t (0 : Fin 2) ≤ 7 ∧ win0_3.index t (1 : Fin 2) ≤ 2 :=
  (by decide +kernel : ∀ t : Fin grid0.N, _)

/-- Every block of the output is some point's. -/
theorem idx_onto : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- One point's stored block, over blocks that are restrictions of whole arrays: the body's entry `(p, q)` is the
    whole-array function at row `r₀ · 512 + p` and column `c₀ · 1024 + q`. -/
theorem point_eq (x0 : Vec Ideal S512x1024 .f32) (x1 : Vec Ideal S1024x1024 .f32) (x2 : Vec Ideal S1024 .f32)
    (a : S4096x1024.Idx → EReal) (w : S1024x3072.Idx → EReal) (b : S3072.Idx → EReal) (r0 c0 : Nat) (hr : r0 ≤ 7) (hc : c0 ≤ 2)
    (h0 : ∀ (p : Fin 512) (k : Fin 1024), x0 (ix2 p k) = a (ix2 ⟨r0 * 512 + p.val, by have := p.isLt; omega⟩ k))
    (h1 : ∀ (k : Fin 1024) (q : Fin 1024), x1 (ix2 k q) = w (ix2 k ⟨c0 * 1024 + q.val, by have := q.isLt; omega⟩))
    (h2 : ∀ q : Fin 1024, x2 (ix1 q) = b (ix1 ⟨c0 * 1024 + q.val, by have := q.isLt; omega⟩))
    (p : Fin 512) (q : Fin 1024) :
    k0_pay1 (F := Ideal) x0 x1 x2 (ix2 p q)
      = Cert.Attn.linear (M := 4096) (K := 1024) (N := 3072) a w b
          (ix2 ⟨r0 * 512 + p.val, by have := p.isLt; omega⟩ ⟨c0 * 1024 + q.val, by have := q.isLt; omega⟩) := by
  rw [Payload.k0_pay1_apply, Cert.Attn.linear_apply]
  simp only [h0, h1, h2]

/-- What point `t` writes back is block `t` of the whole-array function. -/
theorem flushed_eq (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero off2]
  simp only [View.ld_unit_zero (S := S512x1024) off2, View.ld_unit_zero (S := S1024x1024) off2, View.ld_unit_zero (S := S1024) off1]
  obtain ⟨e0, e1, e2, e3, e4, e5, e6⟩ := idx_facts t
  funext j
  have hj0 : (j 0).val < 512 := (j 0).isLt
  have hj1 : (j 1).val < 1024 := (j 1).isLt
  refine (congrArg (k0_pay1 (F := Ideal) (iblk0 V c 0 t) (iblk0 V c 1 t) (iblk0 V c 2 t)) (eq_ix2 j)).trans ?_
  refine (point_eq (iblk0 V c 0 t) (iblk0 V c 1 t) (iblk0 V c 2 t) (V c main_v0) (V c main_arg1) (V c main_arg2)
    (win0_3.index t (0 : Fin 2)) (win0_3.index t (1 : Fin 2)) e5 e6 ?_ ?_ ?_ ⟨(j 0).val, hj0⟩ ⟨(j 1).val, hj1⟩).trans ?_
  · intro p k
    show V c main_v0 (((cfg0.win 0).blk t).view.emb (ix2 p k)) = V c main_v0 _
    refine congrArg (V c main_v0) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 1024 + 1 * k.val = k.val; omega
  · intro k q
    show V c main_arg1 (((cfg0.win 1).blk t).view.emb (ix2 k q)) = V c main_arg1 _
    refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + q.val; omega
  · intro q
    show V c main_arg2 (((cfg0.win 2).blk t).view.emb (ix1 q)) = V c main_arg2 _
    refine congrArg (V c main_arg2) (funext fun a => Fin.ext ?_)
    match a with
    | ⟨0, _⟩ => show win0_2.index t (0 : Fin 1) * 1024 + 1 * q.val = win0_3.index t (1 : Fin 2) * 1024 + q.val; omega
  · show whole V c _ = whole V c (((cfg0.win 3).blk t).view.emb j)
    refine congrArg (whole V c) (funext fun a => Fin.ext ?_)
    match a with
    | ⟨0, _⟩ => show win0_3.index t (0 : Fin 2) * 512 + (j 0).val = win0_3.index t (0 : Fin 2) * 512 + 1 * (j 0).val; omega
    | ⟨1, _⟩ => show win0_3.index t (1 : Fin 2) * 1024 + (j 1).val = win0_3.index t (1 : Fin 2) * 1024 + 1 * (j 1).val; omega

/-- An index of the array is in point `t`'s block iff each coordinate is in the block's range on its axis. -/
theorem mem_blk (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- The blocks tile the array: row `r` and column `f` lie in the block of the point with block indices
    `r / 512` and `f / 1024`. -/
theorem cover (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region's run. -/
theorem final (c : Dev nD) : (dat0 V c).arrAt 3 cfg0.N = whole V c :=
  (dat0 V c).arrAt_eq_of_cover 3 (whole V c) (fun t _ => flushed_eq V c t) (cover)

end Cert.KernelIdeal.Qkv

end
-- ==== Proof.AttnPayload.lean ====
import proofs.«108650_j15891378995335_1_alg».proof.Proof.Gen.KernelIdeal.Skeleton
import proofs.«108650_j15891378995335_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
The attention kernel's body at an index. The body loads a block of 512 query rows of one head and all 2048 key rows
and value rows of that head. It forms the 512 × 2048 scores (queries against keys over the 64 features) times the
scale, takes each row's maximum from minus infinity, exponentiates the scores less the maximum, divides by the row's
sum, and multiplies the weights by the values. Over the extended reals the narrowings to bf16 are the identity and a
product into a zero accumulator is the plain sum, so what is stored is `attend` of the three loaded blocks.
-/

noncomputable section

namespace Cert.KernelIdeal.AttnBody

open Cert.KernelIdeal Cert.KernelIdeal.Gen Idealize.ShloMosaic Idealize.ShloMosaic.ValueIdx
open Cert.Attn

/-! ## The two products' operand indices -/

theorem lhs_sc_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_sc_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem rhs_sc_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_sc_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem lhs_wv_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_wv_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem rhs_wv_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem rhs_wv_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Queries against keys, into the zero accumulator, at `(p, j)`: the sum over the features. -/
theorem scores_apply (a : FVec Ideal S512x64 .bf16) (b : FVec Ideal S2048x64 .bf16) (p : Fin 512) (j : Fin 2048) :
    matmul dot_S512x64_S2048x64_S512x2048_1_1_0_0_n_n none a b (constant S512x2048 .f32 0x00000000#32) (ix2 p j) = ∑ e : Fin 64, a (ix2 p e) * b (ix2 j e) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p j) ((ValueIdx.contrEquiv1 dot_S512x64_S2048x64_S512x2048_1_1_0_0_n_n 64 rfl rfl).symm k) = ix2 p k := funext fun a => Fin.ext (by
    match a with
    | ⟨0, _⟩ => exact lhs_sc_0 _ _
    | ⟨1, _⟩ => exact (lhs_sc_1 _ _).trans hk)
  have er : dot_S512x64_S2048x64_S512x2048_1_1_0_0_n_n.rhsIdx (ix2 p j) ((ValueIdx.contrEquiv1 dot_S512x64_S2048x64_S512x2048_1_1_0_0_n_n 64 rfl rfl).symm k) = ix2 j k := funext fun a => Fin.ext (by
    match a with
    | ⟨0, _⟩ => exact rhs_sc_0 _ _
    | ⟨1, _⟩ => exact (rhs_sc_1 _ _).trans hk)
  rw [el, er]

/-- Weights against values, into the zero accumulator, at `(p, d)`: the sum over the key rows. -/
theorem weighted_apply (a : FVec Ideal S512x2048 .bf16) (b : FVec Ideal S2048x64 .bf16) (p : Fin 512) (d : Fin 64) :
    matmul dot_S512x2048_S2048x64_S512x64_1_0_0_1_n_n none a b (constant S512x64 .f32 0x00000000#32) (ix2 p d) = ∑ j : Fin 2048, a (ix2 p j) * b (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d) ((ValueIdx.contrEquiv1 dot_S512x2048_S2048x64_S512x64_1_0_0_1_n_n 2048 rfl rfl).symm k) = ix2 p k := funext fun a => Fin.ext (by
    match a with
    | ⟨0, _⟩ => exact lhs_wv_0 _ _
    | ⟨1, _⟩ => exact (lhs_wv_1 _ _).trans hk)
  have er : dot_S512x2048_S2048x64_S512x64_1_0_0_1_n_n.rhsIdx (ix2 p d) ((ValueIdx.contrEquiv1 dot_S512x2048_S2048x64_S512x64_1_0_0_1_n_n 2048 rfl rfl).symm k) = ix2 k d := funext fun a => Fin.ext (by
    match a with
    | ⟨0, _⟩ => exact (rhs_wv_0 _ _).trans hk
    | ⟨1, _⟩ => exact rhs_wv_1 _ _)
  rw [el, er]

/-! ## A row statistic spread back over its row -/

/-- A vector of 512 row statistics cast to a column reads, at `(p, u)`, the statistic of row `p`. -/
theorem col_cast_apply {α : Type} (v : S512.Idx → α) (h : S512.ShapeCasts S512x1) (p : Fin 512) (u : Fin 1) :
    shapeCast S512x1 v h (ix2 p u) = v (ix1 p) :=
  Idealize.ShloMosaic.shapeCast_apply v h _ _ (by
    have hu : u.val = 0 := by omega
    rw [Shape.rowMajor_val_one, Shape.rowMajor_val_two]
    show p.val = p.val * 1 + u.val
    omega)

/-- A column repeated along its rows reads, at `(p, j)`, the column's entry of row `p`. -/
theorem col_spread_apply {α : Type} (w : S512x1.Idx → α) (h : S512x1.Broadcasts S512x2048) (p : Fin 512) (j : Fin 2048) :
    broadcastTo S512x2048 w h (ix2 p j) = w (ix2 p (0 : Fin 1)) := by
  refine Idealize.ShloMosaic.broadcastTo_apply w h (ix2 p j) (ix2 p (0 : Fin 1)) fun ax => ?_
  match ax with
  | ⟨0, _⟩ => rfl
  | ⟨1, _⟩ => rfl

/-- A row statistic spread over its row, at `(p, j)`. -/
theorem spread_apply (v : FVec Ideal S512 .f32) (p : Fin 512) (j : Fin 2048) :
    broadcastTo S512x2048 (shapeCast S512x1 v shapeCasts_S512_S512x1) broadcasts_S512x1_S512x2048 (ix2 p j) = v (ix1 p) := by
  rw [col_spread_apply, col_cast_apply]

/-- The index a reduction along the rows inserts: row `p`, position `j`. -/
theorem lift_row (p : Fin 512) (j : Fin 2048) : reduces_S512x2048_S512.lift (ix1 p) j = ix2 p j :=
  funext fun a => Fin.ext (by match a with | ⟨0, _⟩ => rfl | ⟨1, _⟩ => rfl)

/-- Each row's maximum from minus infinity, then once more against minus infinity. -/
theorem row_max_apply (s : FVec Ideal S512x2048 .f32) (p : Fin 512) :
    maximumf (broadcast S512 (Scalar.ofBits (F := Ideal) .f32 0xFF800000#32))
      (multiReduction .maximumf [1] S512 s 0xFF800000#32 reduces_S512x2048_S512 (.inl rfl) rfl) (ix1 p)
      = max botLit ((Finset.univ : Finset (Fin 2048)).fold max botLit (fun j => s (ix2 p j))) := by
  rw [maximumf_apply]
  refine congrArg₂ max rfl ?_
  refine (Ideal.multiReduction_maximumf_single s 0xFF800000#32 reduces_S512x2048_S512 (.inl rfl) rfl (ix1 p)).trans ?_
  refine congrArg (fun f => Finset.fold max botLit f (Finset.univ : Finset (Fin 2048))) (funext fun j => ?_)
  exact congrArg s (lift_row p j)

/-- Each row's sum. -/
theorem row_sum_apply (s : FVec Ideal S512x2048 .f32) (p : Fin 512) :
    multiReduction .add [1] S512 s 0x00000000#32 reduces_S512x2048_S512 (.inl rfl) rfl (ix1 p) = ∑ j : Fin 2048, s (ix2 p j) := by
  refine (Ideal.multiReduction_add_single s 0x00000000#32 reduces_S512x2048_S512 (.inl rfl) rfl (ix1 p)).trans ?_
  refine Finset.sum_congr rfl fun j _ => ?_
  exact congrArg s (lift_row p j)

/-! ## The body -/

/-- The attention body at `(u, p, d)`: attention of the loaded query block against the loaded keys and values. -/
theorem k1_pay1_apply (x0 : Vec Ideal S1x512x64 .f32) (x1 x2 : Vec Ideal S1x2048x64 .f32) (u : Fin 1) (p : Fin 512) (d : Fin 64) :
    k1_pay1 (F := Ideal) x0 x1 x2 (ix3 u p d)
      = attend (G := 1) (Sq := 512) (Sk := 2048) (D := 64) x0 x1 x2 scaleLit botLit (ix3 u p d) := by
  have hu : u = 0 := Subsingleton.elim _ _
  subst hu
  rw [attend_apply]
  unfold k1_pay1
  rw [shapeCast_ab_1ab_apply, weighted_apply]
  refine Finset.sum_congr rfl fun j _ => ?_
  rw [truncf_apply, truncf_apply, shapeCast_1ab_ab_apply, divf_apply, spread_apply, row_sum_apply]
  -- the scaled scores, named once, entry by entry
  set S : FVec Ideal S512x2048 .f32 :=
    mulf (matmul dot_S512x64_S2048x64_S512x2048_1_1_0_0_n_n none (truncf .bf16 (shapeCast S512x64 x0 shapeCasts_S1x512x64_S512x64) bitsLt_bf16_f32)
      (truncf .bf16 (shapeCast S2048x64 x1 shapeCasts_S1x2048x64_S2048x64) bitsLt_bf16_f32) (constant S512x2048 .f32 0x00000000#32))
      (broadcast S512x2048 (Scalar.ofBits (F := Ideal) .f32 0x3E000000#32)) with hS
  have hs : ∀ j' : Fin 2048, S (ix2 p j') = score x0 x1 scaleLit 0 p j' := fun j' => by
    rw [hS, mulf_apply, scores_apply]
    unfold score
    refine congrArg₂ (· * ·) (Finset.sum_congr rfl fun e _ => ?_) rfl
    rw [truncf_apply, truncf_apply, shapeCast_1ab_ab_apply, shapeCast_1ab_ab_apply]
  clear_value S
  -- the exponentials of the scores less the row's maximum
  have he : ∀ j' : Fin 2048,
      exp (subf S (broadcastTo S512x2048 (shapeCast S512x1
        (maximumf (broadcast S512 (Scalar.ofBits (F := Ideal) .f32 0xFF800000#32))
          (multiReduction .maximumf [1] S512 S 0xFF800000#32 reduces_S512x2048_S512 (.inl rfl) rfl))
        shapeCasts_S512_S512x1) broadcasts_S512x1_S512x2048)) (ix2 p j')
      = expo x0 x1 scaleLit botLit 0 p j' := fun j' => by
    show Ideal.exp (subf S _ (ix2 p j')) = _
    rw [subf_apply, spread_apply, row_max_apply]
    unfold expo rowMax
    simp only [hs]
  refine congrArg₂ (· * ·) ?_ rfl
  unfold prob
  simp only [he]

end Cert.KernelIdeal.AttnBody

end
-- ==== Proof.AttnArray.lean ====
import proofs.«108650_j15891378995335_1_alg».proof.Proof.Gen.KernelIdeal.Frame
import proofs.«108650_j15891378995335_1_alg».proof.Proof.AttnPayload
import proofs.«108650_j15891378995335_1_alg».proof.Proof.Spec

/-!
The second region: attention. Its grid is 32 flattened heads by 4 blocks of 512 query rows; point `(g, r)` reads
query rows `512 r … 512 r + 511` of head `g` and all 2048 key rows and value rows of head `g`, and writes that
block of 512 rows of head `g` of the result. A row of attention needs only its own query row and its head's keys and
values, so each block is the restriction of attention over the whole arrays, and the 128 blocks tile the result.
-/

set_option maxRecDepth 16384

noncomputable section

namespace Cert.KernelIdeal.Attention

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Attn

variable (V : (c : Dev nD) → (b : Ref sig .tc) → Buf (Elt Ideal) ((c : Thread nD τ).loc b))

theorem off3 : (![0, 0, 0] : Fin 3 → Nat) = fun _ => 0 := funext fun a => by fin_cases a <;> rfl

/-- The region's array after the run, as one function of the arrays the region is entered with. -/
abbrev whole (c : Dev nD) : S32x2048x64.Idx → EReal :=
  attend (G := 32) (Sq := 2048) (Sk := 2048) (D := 64) (V c main_v7) (V c main_v10) (V c main_v13) scaleLit botLit

/-- The printed index maps over the grid: the queries' head and row block are the output's, the keys' and the values'
    head is the output's, every other block index is zero, and the output's stay in range. -/
theorem idx_facts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 3 ∧ win1_3.index t (2 : Fin 3) = 0 :=
  (by decide +kernel : ∀ t : Fin grid1.N, _)

/-- Every block of the output is some point's. -/
theorem idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

/-- One point's stored block, over blocks that are restrictions of whole arrays: the body's entry `(0, p, d)` is
    attention over the whole arrays at head `g₀`, row `r₀ · 512 + p`, feature `d`. -/
theorem point_eq (x0 : Vec Ideal S1x512x64 .f32) (x1 x2 : Vec Ideal S1x2048x64 .f32)
    (Q K W : S32x2048x64.Idx → EReal) (g0 r0 : Nat) (hg : g0 ≤ 31) (hr : r0 ≤ 3)
    (h0 : ∀ (p : Fin 512) (e : Fin 64), x0 (ix3 (0 : Fin 1) p e) = Q (ix3 ⟨g0, by omega⟩ ⟨r0 * 512 + p.val, by have := p.isLt; omega⟩ e))
    (h1 : ∀ (j : Fin 2048) (e : Fin 64), x1 (ix3 (0 : Fin 1) j e) = K (ix3 ⟨g0, by omega⟩ j e))
    (h2 : ∀ (j : Fin 2048) (e : Fin 64), x2 (ix3 (0 : Fin 1) j e) = W (ix3 ⟨g0, by omega⟩ j e))
    (u : Fin 1) (p : Fin 512) (d : Fin 64) :
    k1_pay1 (F := Ideal) x0 x1 x2 (ix3 u p d)
      = attend (G := 32) (Sq := 2048) (Sk := 2048) (D := 64) Q K W scaleLit botLit
          (ix3 ⟨g0, by omega⟩ ⟨r0 * 512 + p.val, by have := p.isLt; omega⟩ d) := by
  have hu : u = 0 := Subsingleton.elim _ _
  subst hu
  rw [AttnBody.k1_pay1_apply]
  exact attend_congr x0 x1 x2 Q K W scaleLit botLit 0 p ⟨g0, by omega⟩ ⟨r0 * 512 + p.val, by have := p.isLt; omega⟩ (h0 p) h1 h2 d

/-- What point `t` writes back is block `t` of the whole-array function. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero off3]
  simp only [View.ld_unit_zero (S := S1x512x64) off3, View.ld_unit_zero (S := S1x2048x64) off3]
  obtain ⟨e0, e1, e2, e3, e4, e5, e6, e7, e8, e9, e10, e11⟩ := idx_facts t
  funext j
  have hj0 : (j 0).val < 1 := (j 0).isLt
  have hj1 : (j 1).val < 512 := (j 1).isLt
  have hj2 : (j 2).val < 64 := (j 2).isLt
  refine (congrArg (k1_pay1 (F := Ideal) (iblk1 V c 0 t) (iblk1 V c 1 t) (iblk1 V c 2 t)) (eq_ix3 j)).trans ?_
  refine (point_eq (iblk1 V c 0 t) (iblk1 V c 1 t) (iblk1 V c 2 t) (V c main_v7) (V c main_v10) (V c main_v13)
    (win1_3.index t (0 : Fin 3)) (win1_3.index t (1 : Fin 3)) e9 e10 ?_ ?_ ?_ ⟨(j 0).val, hj0⟩ ⟨(j 1).val, hj1⟩ ⟨(j 2).val, hj2⟩).trans ?_
  · intro p e
    show V c main_v7 (((cfg1.win 0).blk t).view.emb (ix3 (0 : Fin 1) p e)) = V c main_v7 _
    refine congrArg (V c main_v7) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * p.val = win1_3.index t (1 : Fin 3) * 512 + p.val; omega
    | ⟨2, _⟩ => show win1_0.index t (2 : Fin 3) * 64 + 1 * e.val = e.val; omega
  · intro k e
    show V c main_v10 (((cfg1.win 1).blk t).view.emb (ix3 (0 : Fin 1) k e)) = V c main_v10 _
    refine congrArg (V c main_v10) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * k.val = k.val; omega
    | ⟨2, _⟩ => show win1_1.index t (2 : Fin 3) * 64 + 1 * e.val = e.val; omega
  · intro k e
    show V c main_v13 (((cfg1.win 2).blk t).view.emb (ix3 (0 : Fin 1) k e)) = V c main_v13 _
    refine congrArg (V c main_v13) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * k.val = k.val; omega
    | ⟨2, _⟩ => show win1_2.index t (2 : Fin 3) * 64 + 1 * e.val = e.val; omega
  · show whole V c _ = whole V c (((cfg1.win 3).blk t).view.emb j)
    refine congrArg (whole V c) (funext fun a => Fin.ext ?_)
    match a with
    | ⟨0, _⟩ => show win1_3.index t (0 : Fin 3) = win1_3.index t (0 : Fin 3) * 1 + 1 * (j 0).val; omega
    | ⟨1, _⟩ => show win1_3.index t (1 : Fin 3) * 512 + (j 1).val = win1_3.index t (1 : Fin 3) * 512 + 1 * (j 1).val; omega
    | ⟨2, _⟩ => show (j 2).val = win1_3.index t (2 : Fin 3) * 64 + 1 * (j 2).val; omega

/-- An index of the array is in point `t`'s block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v14).slice (win1_3.rect t)).set ↔ _
  rw [View.set_slice_whole, Rect.mem_set_unit]
  exact Iff.rfl

/-- The blocks tile the array: head `g` and row `s` lie in the block of the point with block indices `g` and
    `s / 512`. -/
theorem cover (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The array after the region's run. -/
theorem final (c : Dev nD) : (dat1 V c).arrAt 3 cfg1.N = whole V c :=
  (dat1 V c).arrAt_eq_of_cover 3 (whole V c) (fun t _ => flushed_eq V c t) (cover)

end Cert.KernelIdeal.Attention

end
-- ==== Proof.ProjOut.lean ====
import proofs.«108650_j15891378995335_1_alg».proof.Proof.Gen.KernelIdeal.Frame
import proofs.«108650_j15891378995335_1_alg».proof.Proof.LinearPayload
import proofs.«108650_j15891378995335_1_alg».proof.Proof.Spec

/-!
The third region: the output projection. Its grid is 8 row blocks by 1 column block; point `(i, 0)` reads rows
`512 i … 512 i + 511` of the merged attention output, the whole `1024 × 1024` weight matrix and the whole bias, and
writes that block of the `4096 × 1024` result. Each block is the restriction of one function of the whole arrays —
rows times weights plus bias — and the 8 blocks tile the result, so the array after the region is that function.
-/

set_option maxRecDepth 16384

noncomputable section

namespace Cert.KernelIdeal.OutProj

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The region's array after the run, as one function of the arrays the region is entered with. -/
abbrev whole (c : Dev nD) : S4096x1024.Idx → EReal :=
  Cert.Attn.linear (M := 4096) (K := 1024) (N := 1024) (V c main_v17) (V c main_arg3) (V c main_arg4)

/-- The printed index maps over the grid: the row block of the input rows is the output's, the column block of the
    weights and of the bias is the output's, the other block indices are zero, and the output's stay in range. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 1) = win2_3.index t (1 : Fin 2)
    ∧ win2_3.index t (0 : Fin 2) ≤ 7 ∧ win2_3.index t (1 : Fin 2) ≤ 0 :=
  (by decide +kernel : ∀ t : Fin grid2.N, _)

/-- Every block of the output is some point's. -/
theorem idx_onto : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- One point's stored block, over blocks that are restrictions of whole arrays: the body's entry `(p, q)` is the
    whole-array function at row `r₀ · 512 + p` and column `c₀ · 1024 + q`. -/
theorem point_eq (x0 : Vec Ideal S512x1024 .f32) (x1 : Vec Ideal S1024x1024 .f32) (x2 : Vec Ideal S1024 .f32)
    (a : S4096x1024.Idx → EReal) (w : S1024x1024.Idx → EReal) (b : S1024.Idx → EReal) (r0 c0 : Nat) (hr : r0 ≤ 7) (hc : c0 ≤ 0)
    (h0 : ∀ (p : Fin 512) (k : Fin 1024), x0 (ix2 p k) = a (ix2 ⟨r0 * 512 + p.val, by have := p.isLt; omega⟩ k))
    (h1 : ∀ (k : Fin 1024) (q : Fin 1024), x1 (ix2 k q) = w (ix2 k ⟨c0 * 1024 + q.val, by have := q.isLt; omega⟩))
    (h2 : ∀ q : Fin 1024, x2 (ix1 q) = b (ix1 ⟨c0 * 1024 + q.val, by have := q.isLt; omega⟩))
    (p : Fin 512) (q : Fin 1024) :
    k2_pay1 (F := Ideal) x0 x1 x2 (ix2 p q)
      = Cert.Attn.linear (M := 4096) (K := 1024) (N := 1024) a w b
          (ix2 ⟨r0 * 512 + p.val, by have := p.isLt; omega⟩ ⟨c0 * 1024 + q.val, by have := q.isLt; omega⟩) := by
  rw [Payload.k2_pay1_apply, Cert.Attn.linear_apply]
  simp only [h0, h1, h2]

/-- What point `t` writes back is block `t` of the whole-array function. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero off2]
  simp only [View.ld_unit_zero (S := S512x1024) off2, View.ld_unit_zero (S := S1024x1024) off2, View.ld_unit_zero (S := S1024) off1]
  obtain ⟨e0, e1, e2, e3, e4, e5, e6⟩ := idx_facts t
  funext j
  have hj0 : (j 0).val < 512 := (j 0).isLt
  have hj1 : (j 1).val < 1024 := (j 1).isLt
  refine (congrArg (k2_pay1 (F := Ideal) (iblk2 V c 0 t) (iblk2 V c 1 t) (iblk2 V c 2 t)) (eq_ix2 j)).trans ?_
  refine (point_eq (iblk2 V c 0 t) (iblk2 V c 1 t) (iblk2 V c 2 t) (V c main_v17) (V c main_arg3) (V c main_arg4)
    (win2_3.index t (0 : Fin 2)) (win2_3.index t (1 : Fin 2)) e5 e6 ?_ ?_ ?_ ⟨(j 0).val, hj0⟩ ⟨(j 1).val, hj1⟩).trans ?_
  · intro p k
    show V c main_v17 (((cfg2.win 0).blk t).view.emb (ix2 p k)) = V c main_v17 _
    refine congrArg (V c main_v17) (funext fun a => Fin.ext ?_)
    match a with
    | ⟨0, _⟩ => show win2_0.index t (0 : Fin 2) * 512 + 1 * p.val = win2_3.index t (0 : Fin 2) * 512 + p.val; omega
    | ⟨1, _⟩ => show win2_0.index t (1 : Fin 2) * 1024 + 1 * k.val = k.val; omega
  · intro k q
    show V c main_arg3 (((cfg2.win 1).blk t).view.emb (ix2 k q)) = V c main_arg3 _
    refine congrArg (V c main_arg3) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + q.val; omega
  · intro q
    show V c main_arg4 (((cfg2.win 2).blk t).view.emb (ix1 q)) = V c main_arg4 _
    refine congrArg (V c main_arg4) (funext fun a => Fin.ext ?_)
    match a with
    | ⟨0, _⟩ => show win2_2.index t (0 : Fin 1) * 1024 + 1 * q.val = win2_3.index t (1 : Fin 2) * 1024 + q.val; omega
  · show whole V c _ = whole V c (((cfg2.win 3).blk t).view.emb j)
    refine congrArg (whole V c) (funext fun a => Fin.ext ?_)
    match a with
    | ⟨0, _⟩ => show win2_3.index t (0 : Fin 2) * 512 + (j 0).val = win2_3.index t (0 : Fin 2) * 512 + 1 * (j 0).val; omega
    | ⟨1, _⟩ => show win2_3.index t (1 : Fin 2) * 1024 + (j 1).val = win2_3.index t (1 : Fin 2) * 1024 + 1 * (j 1).val; omega

/-- An index of the array is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v18).slice (win2_3.rect t)).set ↔ _
  rw [View.set_slice_whole, Rect.mem_set_unit]
  exact Iff.rfl

/-- The blocks tile the array: row `r` and column `f` lie in the block of the point with block indices
    `r / 512` and `f / 1024`. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array after the region's run. -/
theorem final (c : Dev nD) : (dat2 V c).arrAt 3 cfg2.N = whole V c :=
  (dat2 V c).arrAt_eq_of_cover 3 (whole V c) (fun t _ => flushed_eq V c t) (cover)

end Cert.KernelIdeal.OutProj

end
-- ==== Proof.Layout.lean ====
import Idealize.ShloMosaic.Lib.ValueIdx
import Idealize.ShloMosaic.Lib.ValueLayout
import Idealize.ShloMosaic.Lib.Pipeline.Value

/-!
The program's re-layouts between its kernels, read at an index.

The batch of 2 and the 2048 positions are flattened to 4096 rows (row `b · 2048 + s`); the 1024 features of a row
are 16 heads of 64 (feature `h · 64 + d`); the kernels work on heads flattened with the batch (head `b · 16 + h`).
A reshape keeps the row-major position, a transpose permutes the coordinates, and a slice shifts one of them, so
each chain reads its operand at one index:

* flattening and unflattening the rows: `(b · 2048 + s, f) ↔ (b, s, f)`;
* splitting the heads out of the columns `off … off + 1023` of the fused projection:
  `(b · 16 + h, s, d) ↦ (b · 2048 + s, off + h · 64 + d)`;
* merging the heads back: `(b · 2048 + s, h · 64 + d) ↦ (b · 16 + h, s, d)`.
-/

noncomputable section

namespace Cert.Attn.Layout

open Idealize.ShloMosaic Idealize.ShloMosaic.ValueIdx

variable {α : Type}

/-- Row `b · 2048 + s` of the 4096. -/
abbrev row (b : Fin 2) (s : Fin 2048) : Fin 4096 := ⟨b.val * 2048 + s.val, by have := b.isLt; have := s.isLt; omega⟩
/-- Flattened head `b · 16 + h` of the 32. -/
abbrev head (b : Fin 2) (h : Fin 16) : Fin 32 := ⟨b.val * 16 + h.val, by have := b.isLt; have := h.isLt; omega⟩
/-- Feature `h · 64 + d` of the 1024. -/
abbrev feat (h : Fin 16) (d : Fin 64) : Fin 1024 := ⟨h.val * 64 + d.val, by have := h.isLt; have := d.isLt; omega⟩
/-- Column `off + h · 64 + d` of the 3072, for `off` one of 0, 1024, 2048. -/
abbrev col (off : Nat) (hoff : off ≤ 2048) (h : Fin 16) (d : Fin 64) : Fin 3072 :=
  ⟨off + (h.val * 64 + d.val), by have := h.isLt; have := d.isLt; omega⟩

/-- The rows flattened: `[2, 2048, N] → [4096, N]`. -/
theorem flatten_apply {N : Nat} (x : (⟨3, ![2, 2048, N]⟩ : Shape).Idx → α)
    (h : (⟨3, ![2, 2048, N]⟩ : Shape).ShapeCasts ⟨2, ![4096, N]⟩) (b : Fin 2) (s : Fin 2048) (f : Fin N) :
    shapeCast ⟨2, ![4096, N]⟩ x h (ix2 (row b s) f) = x (ix3 b s f) :=
  shapeCast_apply x h _ _ (by
    rw [Shape.rowMajor_val_three, Shape.rowMajor_val_two]
    show (b.val * 2048 + s.val) * N + f.val = (b.val * 2048 + s.val) * N + f.val
    rfl)

/-- The rows unflattened: `[4096, N] → [2, 2048, N]`. -/
theorem unflatten_apply {N : Nat} (x : (⟨2, ![4096, N]⟩ : Shape).Idx → α)
    (h : (⟨2, ![4096, N]⟩ : Shape).ShapeCasts ⟨3, ![2, 2048, N]⟩) (b : Fin 2) (s : Fin 2048) (f : Fin N) :
    shapeCast ⟨3, ![2, 2048, N]⟩ x h (ix3 b s f) = x (ix2 (row b s) f) :=
  shapeCast_apply x h _ _ (by
    rw [Shape.rowMajor_val_three, Shape.rowMajor_val_two]
    show (b.val * 2048 + s.val) * N + f.val = (b.val * 2048 + s.val) * N + f.val
    rfl)

/-- The heads split out of 1024 columns of the fused projection: slice, `[4096, 1024] → [2, 2048, 16, 64]`,
    positions and heads exchanged, `[2, 16, 2048, 64] → [32, 2048, 64]`. -/
theorem split_apply (off : Nat) (hoff : off ≤ 2048) (x : (⟨2, ![4096, 3072]⟩ : Shape).Idx → α)
    (hs : (⟨2, ![4096, 3072]⟩ : Shape).Slices ![0, off] ⟨2, ![4096, 1024]⟩)
    (h1 : (⟨2, ![4096, 1024]⟩ : Shape).ShapeCasts ⟨4, ![2, 2048, 16, 64]⟩)
    (ht : (⟨4, ![2, 2048, 16, 64]⟩ : Shape).Transposes [0, 2, 1, 3] ⟨4, ![2, 16, 2048, 64]⟩)
    (h2 : (⟨4, ![2, 16, 2048, 64]⟩ : Shape).ShapeCasts ⟨3, ![32, 2048, 64]⟩)
    (b : Fin 2) (h : Fin 16) (s : Fin 2048) (d : Fin 64) :
    shapeCast ⟨3, ![32, 2048, 64]⟩
      (transpose ⟨4, ![2, 16, 2048, 64]⟩ [0, 2, 1, 3]
        (shapeCast ⟨4, ![2, 2048, 16, 64]⟩ (extractStridedSlice ⟨2, ![4096, 1024]⟩ ![0, off] x hs) h1) ht) h2
      (ix3 (head b h) s d)
    = x (ix2 (row b s) (col off hoff h d)) := by
  refine (shapeCast_apply _ h2 _ (ix4 b h s d) (by
    rw [Shape.rowMajor_val_four, Shape.rowMajor_val_three]
    show ((b.val * 16 + h.val) * 2048 + s.val) * 64 + d.val = ((b.val * 16 + h.val) * 2048 + s.val) * 64 + d.val
    rfl)).trans ?_
  refine (transpose_apply _ _ ht _ (ix4 b s h d) (fun a => by
    match a with
    | ⟨0, _⟩ => rfl
    | ⟨1, _⟩ => rfl
    | ⟨2, _⟩ => rfl
    | ⟨3, _⟩ => rfl)).trans ?_
  refine (shapeCast_apply _ h1 _ (ix2 (row b s) (feat h d)) (by
    rw [Shape.rowMajor_val_four, Shape.rowMajor_val_two]
    show (b.val * 2048 + s.val) * 1024 + (h.val * 64 + d.val) = ((b.val * 2048 + s.val) * 16 + h.val) * 64 + d.val
    omega)).trans ?_
  exact extractStridedSlice_apply _ x hs _ _ (fun a => by
    match a with
    | ⟨0, _⟩ => show b.val * 2048 + s.val = 0 + (b.val * 2048 + s.val); omega
    | ⟨1, _⟩ => show off + (h.val * 64 + d.val) = off + (h.val * 64 + d.val); rfl)

/-- The heads merged back: `[32, 2048, 64] → [2, 16, 2048, 64]`, heads and positions exchanged,
    `[2, 2048, 16, 64] → [4096, 1024]`. -/
theorem merge_apply (x : (⟨3, ![32, 2048, 64]⟩ : Shape).Idx → α)
    (h1 : (⟨3, ![32, 2048, 64]⟩ : Shape).ShapeCasts ⟨4, ![2, 16, 2048, 64]⟩)
    (ht : (⟨4, ![2, 16, 2048, 64]⟩ : Shape).Transposes [0, 2, 1, 3] ⟨4, ![2, 2048, 16, 64]⟩)
    (h2 : (⟨4, ![2, 2048, 16, 64]⟩ : Shape).ShapeCasts ⟨2, ![4096, 1024]⟩)
    (b : Fin 2) (h : Fin 16) (s : Fin 2048) (d : Fin 64) :
    shapeCast ⟨2, ![4096, 1024]⟩
      (transpose ⟨4, ![2, 2048, 16, 64]⟩ [0, 2, 1, 3] (shapeCast ⟨4, ![2, 16, 2048, 64]⟩ x h1) ht) h2
      (ix2 (row b s) (feat h d))
    = x (ix3 (head b h) s d) := by
  refine (shapeCast_apply _ h2 _ (ix4 b s h d) (by
    rw [Shape.rowMajor_val_four, Shape.rowMajor_val_two]
    show ((b.val * 2048 + s.val) * 16 + h.val) * 64 + d.val = (b.val * 2048 + s.val) * 1024 + (h.val * 64 + d.val)
    omega)).trans ?_
  refine (transpose_apply _ _ ht _ (ix4 b h s d) (fun a => by
    match a with
    | ⟨0, _⟩ => rfl
    | ⟨1, _⟩ => rfl
    | ⟨2, _⟩ => rfl
    | ⟨3, _⟩ => rfl)).trans ?_
  exact shapeCast_apply _ h1 _ _ (by
    rw [Shape.rowMajor_val_four, Shape.rowMajor_val_three]
    show ((b.val * 16 + h.val) * 2048 + s.val) * 64 + d.val = ((b.val * 16 + h.val) * 2048 + s.val) * 64 + d.val
    rfl)

/-- The reference's split of the heads, from the unflattened rows: slice of `[2, 2048, 3072]`,
    `[2, 2048, 1024] → [2, 2048, 16, 64]`, positions and heads exchanged. -/
theorem split4_apply (off : Nat) (hoff : off ≤ 2048) (x : (⟨3, ![2, 2048, 3072]⟩ : Shape).Idx → α)
    (hs : (⟨3, ![2, 2048, 3072]⟩ : Shape).Slices ![0, 0, off] ⟨3, ![2, 2048, 1024]⟩)
    (h1 : (⟨3, ![2, 2048, 1024]⟩ : Shape).ShapeCasts ⟨4, ![2, 2048, 16, 64]⟩)
    (ht : (⟨4, ![2, 2048, 16, 64]⟩ : Shape).Transposes [0, 2, 1, 3] ⟨4, ![2, 16, 2048, 64]⟩)
    (b : Fin 2) (h : Fin 16) (s : Fin 2048) (d : Fin 64) :
    transpose ⟨4, ![2, 16, 2048, 64]⟩ [0, 2, 1, 3]
        (shapeCast ⟨4, ![2, 2048, 16, 64]⟩ (extractStridedSlice ⟨3, ![2, 2048, 1024]⟩ ![0, 0, off] x hs) h1) ht
      (ix4 b h s d)
    = x (ix3 b s (col off hoff h d)) := by
  refine (transpose_apply _ _ ht _ (ix4 b s h d) (fun a => by
    match a with
    | ⟨0, _⟩ => rfl
    | ⟨1, _⟩ => rfl
    | ⟨2, _⟩ => rfl
    | ⟨3, _⟩ => rfl)).trans ?_
  refine (shapeCast_apply _ h1 _ (ix3 b s (feat h d)) (by
    rw [Shape.rowMajor_val_four, Shape.rowMajor_val_three]
    show (b.val * 2048 + s.val) * 1024 + (h.val * 64 + d.val) = ((b.val * 2048 + s.val) * 16 + h.val) * 64 + d.val
    omega)).trans ?_
  exact extractStridedSlice_apply _ x hs _ _ (fun a => by
    match a with
    | ⟨0, _⟩ => show b.val = 0 + b.val; omega
    | ⟨1, _⟩ => show s.val = 0 + s.val; omega
    | ⟨2, _⟩ => show off + (h.val * 64 + d.val) = off + (h.val * 64 + d.val); rfl)

/-- The reference's merge of the heads: heads and positions exchanged, `[2, 2048, 16, 64] → [2, 2048, 1024]`. -/
theorem merge4_apply (x : (⟨4, ![2, 16, 2048, 64]⟩ : Shape).Idx → α)
    (ht : (⟨4, ![2, 16, 2048, 64]⟩ : Shape).Transposes [0, 2, 1, 3] ⟨4, ![2, 2048, 16, 64]⟩)
    (h2 : (⟨4, ![2, 2048, 16, 64]⟩ : Shape).ShapeCasts ⟨3, ![2, 2048, 1024]⟩)
    (b : Fin 2) (h : Fin 16) (s : Fin 2048) (d : Fin 64) :
    shapeCast ⟨3, ![2, 2048, 1024]⟩ (transpose ⟨4, ![2, 2048, 16, 64]⟩ [0, 2, 1, 3] x ht) h2 (ix3 b s (feat h d))
    = x (ix4 b h s d) := by
  refine (shapeCast_apply _ h2 _ (ix4 b s h d) (by
    rw [Shape.rowMajor_val_four, Shape.rowMajor_val_three]
    show ((b.val * 2048 + s.val) * 16 + h.val) * 64 + d.val = (b.val * 2048 + s.val) * 1024 + (h.val * 64 + d.val)
    omega)).trans ?_
  exact transpose_apply _ _ ht _ (ix4 b h s d) (fun a => by
    match a with
    | ⟨0, _⟩ => rfl
    | ⟨1, _⟩ => rfl
    | ⟨2, _⟩ => rfl
    | ⟨3, _⟩ => rfl)

/-- A feature index is a head and a position in the head. -/
theorem exists_feat (k : Fin 1024) : ∃ (h : Fin 16) (d : Fin 64), k = feat h d :=
  ⟨⟨k.val / 64, by have := k.isLt; omega⟩, ⟨k.val % 64, Nat.mod_lt _ (by decide)⟩, Fin.ext (by show k.val = k.val / 64 * 64 + k.val % 64; omega)⟩

/-- A flattened head is a batch entry and a head. -/
theorem exists_head (g : Fin 32) : ∃ (b : Fin 2) (h : Fin 16), g = head b h :=
  ⟨⟨g.val / 16, by have := g.isLt; omega⟩, ⟨g.val % 16, Nat.mod_lt _ (by decide)⟩, Fin.ext (by show g.val = g.val / 16 * 16 + g.val % 16; omega)⟩

end Cert.Attn.Layout

end
-- ==== Proof.Consts.lean ====
import Idealize.ShloMosaic.PureOps.Ideal
import proofs.«108650_j15891378995335_1_alg».proof.Proof.Spec

/-!
The two programs' score scale. The kernel multiplies a score by the literal `0.125`; the reference divides it by the
square root of the literal `64`. The first literal denotes the real `1/8`, the second the real `64`, whose square
root is `8`, and dividing an extended real by the nonzero real `8` is multiplying it by `1/8`: the two scalings
agree on every extended real, the infinities included.
-/

noncomputable section

namespace Cert.Attn.Consts

open Idealize.ShloMosaic

/-- The reference's `64.0` denotes the real `64`. -/
theorem ofBits_64 : Ideal.ofBits .f32 0x42800000#32 = ((64 : ℝ) : EReal) := by
  simp [Ideal.ofBits, Ideal.ieee, -EReal.coe_mul]; norm_num

/-- The kernel's `0.125` denotes the real `1/8`. -/
theorem ofBits_eighth : Ideal.ofBits .f32 0x3E000000#32 = ((1 / 8 : ℝ) : EReal) := by
  simp [Ideal.ofBits, Ideal.ieee, -EReal.coe_mul]; norm_num

/-- The square root of the reference's `64.0` is the real `8`. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by the square root of 64 is multiplying by the kernel's scale, on every extended real. -/
theorem scale_eq (x : EReal) :
    Ideal.div x (Ideal.sqrt (Ideal.ofBits .f32 0x42800000#32)) = x * Cert.Attn.scaleLit := by
  rw [sqrt_64, Ideal.div_coe (by norm_num : (8 : ℝ) ≠ 0)]
  show _ = x * Ideal.ofBits .f32 0x3E000000#32
  rw [ofBits_eighth]

/-- The sum's starting literal denotes zero. -/
theorem ofBits_zero : Ideal.ofBits .f32 0x00000000#32 = 0 := by
  simp [Ideal.ofBits, Ideal.ieee]

end Cert.Attn.Consts

end
-- ==== Proof.RefRead.lean ====
import proofs.«108650_j15891378995335_1_alg».proof.Proof.Gen.ReferenceIdeal.Read
import proofs.«108650_j15891378995335_1_alg».proof.Proof.Spec
import proofs.«108650_j15891378995335_1_alg».proof.Proof.Layout
import proofs.«108650_j15891378995335_1_alg».proof.Proof.Consts
import Idealize.ShloMosaic.PureOps.Reduce

/-!
The reference, stage by stage, at explicit coordinates: batch entry `b`, position `s`, head `h`, feature `d`.

* the fused projection at `(b, s, f)` is `(∑ k, x (b, s, k) · w (k, f)) + bias f`;
* the query, key and value heads at `(b, h, s, d)` are the fused projection at `(b, s, off + h · 64 + d)` for
  `off` 0, 1024 and 2048;
* the attention output at `(b, h, s, d)` is `attend` of any three arrays that hold the heads with batch and head
  flattened — the reference divides the scores by the square root of 64 where `attend` multiplies by the scale, takes
  the row's maximum from the same starting value and sums the exponentials from zero;
* the merged output at `(b, s, h · 64 + d)` is the attention output at `(b, h, s, d)`;
* the result at `(b, s, e)` is `(∑ k, merged (b, s, k) · w' (k, e)) + bias' e`.
-/

noncomputable section

namespace Cert.ReferenceIdeal.Stages

open Cert.ReferenceIdeal Cert.ReferenceIdeal.Gen Cert.ReferenceIdeal.Read
open Idealize.ShloMosaic Idealize.ShloMosaic.ValueIdx
open Cert.Attn Cert.Attn.Layout

variable (X : (⟨S2x2048x1024, .f32⟩ : BufTy).Contents (Elt Ideal)) (Wa : (⟨S1024x3072, .f32⟩ : BufTy).Contents (Elt Ideal))
  (ba : (⟨S3072, .f32⟩ : BufTy).Contents (Elt Ideal))

/-! ## The fused projection -/

theorem qkv_apply (b : Fin 2) (s : Fin 2048) (f : Fin 3072) :
    val_main_v3 (F := Ideal) X Wa ba (ix3 b s f) = (∑ k : Fin 1024, X (ix3 b s k) * Wa (ix2 k f)) + ba (ix1 f) := by
  rw [val_main_v3_apply, val_main_v0_apply, val_main_v2_apply, val_main_v1_apply]
  have e1 : ∀ k : Fin 1024, lidx_main_v0 (ix3 b s f) k = ix3 b s k := fun k =>
    funext fun a => Fin.ext (by match a with | ⟨0, _⟩ => rfl | ⟨1, _⟩ => rfl | ⟨2, _⟩ => rfl)
  have e2 : ∀ k : Fin 1024, ridx_main_v0 (ix3 b s f) k = ix2 k f := fun k =>
    funext fun a => Fin.ext (by match a with | ⟨0, _⟩ => rfl | ⟨1, _⟩ => rfl)
  have e3 : idx_main_v1 (idx_main_v2 (ix3 b s f)) = ix1 f :=
    funext fun a => Fin.ext (by match a with | ⟨0, _⟩ => rfl)
  simp only [e1, e2, e3]
  rfl

/-! ## The heads -/

theorem q_apply (b : Fin 2) (h : Fin 16) (s : Fin 2048) (d : Fin 64) :
    val_main_v8 (F := Ideal) X Wa ba (ix4 b h s d) = val_main_v3 (F := Ideal) X Wa ba (ix3 b s (col 0 (by omega) h d)) := by
  unfold val_main_v8 val_main_v7 val_main_v4
  generalize val_main_v3 (F := Ideal) X Wa ba = y
  exact split4_apply 0 (by omega) y _ _ _ b h s d

theorem k_apply (b : Fin 2) (h : Fin 16) (s : Fin 2048) (d : Fin 64) :
    val_main_v10 (F := Ideal) X Wa ba (ix4 b h s d) = val_main_v3 (F := Ideal) X Wa ba (ix3 b s (col 1024 (by omega) h d)) := by
  unfold val_main_v10 val_main_v9 val_main_v5
  generalize val_main_v3 (F := Ideal) X Wa ba = y
  exact split4_apply 1024 (by omega) y _ _ _ b h s d

theorem v_apply (b : Fin 2) (h : Fin 16) (s : Fin 2048) (d : Fin 64) :
    val_main_v12 (F := Ideal) X Wa ba (ix4 b h s d) = val_main_v3 (F := Ideal) X Wa ba (ix3 b s (col 2048 (by omega) h d)) := by
  unfold val_main_v12 val_main_v11 val_main_v6
  generalize val_main_v3 (F := Ideal) X Wa ba = y
  exact split4_apply 2048 (by omega) y _ _ _ b h s d

/-! ## Attention -/

/-- The score array reduces along its key axis to the row statistics' shape. -/
theorem reduces_keys : S2x16x2048x2048.Reduces [3] S2x16x2048 := by decide

/-- The index a reduction along the key rows inserts. -/
theorem lift_key (hr : S2x16x2048x2048.Reduces [3] S2x16x2048) (b : Fin 2) (h : Fin 16) (s j : Fin 2048) :
    hr.lift (ix3 b h s) j = ix4 b h s j :=
  funext fun a => Fin.ext (by match a with | ⟨0, _⟩ => rfl | ⟨1, _⟩ => rfl | ⟨2, _⟩ => rfl | ⟨3, _⟩ => rfl)

section Attention
variable (q k v : (⟨3, ![32, 2048, 64]⟩ : Shape).Idx → EReal)
  (hq : ∀ (b : Fin 2) (h : Fin 16) (s : Fin 2048) (e : Fin 64), q (ix3 (head b h) s e) = val_main_v8 (F := Ideal) X Wa ba (ix4 b h s e))
  (hk : ∀ (b : Fin 2) (h : Fin 16) (s : Fin 2048) (e : Fin 64), k (ix3 (head b h) s e) = val_main_v10 (F := Ideal) X Wa ba (ix4 b h s e))
  (hv : ∀ (b : Fin 2) (h : Fin 16) (s : Fin 2048) (e : Fin 64), v (ix3 (head b h) s e) = val_main_v12 (F := Ideal) X Wa ba (ix4 b h s e))
include hq hk

/-- The reference's scaled score. -/
theorem score_apply (b : Fin 2) (h : Fin 16) (s j : Fin 2048) :
    val_main_v16 (F := Ideal) X Wa ba (ix4 b h s j) = score q k scaleLit (head b h) s j := by
  rw [val_main_v16_apply, val_main_v13_apply, val_main_v15_apply, val_main_v14_apply, val_main_cst_apply]
  have e1 : ∀ e : Fin 64, lidx_main_v13 (ix4 b h s j) e = ix4 b h s e := fun e =>
    funext fun a => Fin.ext (by match a with | ⟨0, _⟩ => rfl | ⟨1, _⟩ => rfl | ⟨2, _⟩ => rfl | ⟨3, _⟩ => rfl)
  have e2 : ∀ e : Fin 64, ridx_main_v13 (ix4 b h s j) e = ix4 b h j e := fun e =>
    funext fun a => Fin.ext (by match a with | ⟨0, _⟩ => rfl | ⟨1, _⟩ => rfl | ⟨2, _⟩ => rfl | ⟨3, _⟩ => rfl)
  simp only [e1, e2, ← hq, ← hk]
  exact Consts.scale_eq _

/-- The reference's row maximum. -/
theorem rowMax_apply (b : Fin 2) (h : Fin 16) (s : Fin 2048) :
    val_main_v19 (F := Ideal) X Wa ba (ix3 b h s) = rowMax q k scaleLit botLit (head b h) s := by
  have hfold : val_main_v17 (F := Ideal) X Wa ba (ix3 b h s)
      = Finset.fold max botLit (fun j => score q k scaleLit (head b h) s j) (Finset.univ : Finset (Fin 2048)) := by
    unfold val_main_v17
    have hl := Host.reduce_eq_fold_single (s := S2x16x2048x2048) (t := S2x16x2048) (a := (3 : Fin 4)) (u := S_)
      (FloatOps.maximumf (F := Ideal) (φ := .f32)) (val_main_v16 (F := Ideal) X Wa ba) (val_main_cst_0 (F := Ideal))
      reducesTo_S2x16x2048x2048_S2x16x2048_d3 reduces_keys h_S_ (ix3 b h s)
    refine hl.trans ?_
    refine congrArg (fun f => Finset.fold max botLit f (Finset.univ : Finset (Fin 2048))) (funext fun j => ?_)
    exact (congrArg (val_main_v16 (F := Ideal) X Wa ba) (lift_key reduces_keys b h s j)).trans (score_apply X Wa ba q k hq hk b h s j)
  rw [val_main_v19_apply, val_main_v18_apply, hfold]
  rfl

/-- The reference's exponential. -/
theorem expo_apply (b : Fin 2) (h : Fin 16) (s j : Fin 2048) :
    val_main_v23 (F := Ideal) X Wa ba (ix4 b h s j) = expo q k scaleLit botLit (head b h) s j := by
  rw [val_main_v23_apply, val_main_v22_apply, val_main_v21_apply, val_main_v20_apply]
  have e1 : idx_main_v20 (idx_main_v21 (ix4 b h s j)) = ix3 b h s :=
    funext fun a => Fin.ext (by match a with | ⟨0, _⟩ => rfl | ⟨1, _⟩ => rfl | ⟨2, _⟩ => rfl)
  rw [e1, rowMax_apply X Wa ba q k hq hk, score_apply X Wa ba q k hq hk]
  rfl

/-- The reference's softmax weight. -/
theorem prob_apply (b : Fin 2) (h : Fin 16) (s j : Fin 2048) :
    val_main_v27 (F := Ideal) X Wa ba (ix4 b h s j) = prob q k scaleLit botLit (head b h) s j := by
  rw [val_main_v27_apply, val_main_v26_apply, val_main_v25_apply, val_main_v24_apply]
  have e1 : idx_main_v25 (idx_main_v26 (ix4 b h s j)) = ix3 b h s :=
    funext fun a => Fin.ext (by match a with | ⟨0, _⟩ => rfl | ⟨1, _⟩ => rfl | ⟨2, _⟩ => rfl)
  have e2 : ∀ j' : Fin 2048, idx_main_v24 (ix3 b h s) j' = ix4 b h s j' := fun j' =>
    funext fun a => Fin.ext (by match a with | ⟨0, _⟩ => rfl | ⟨1, _⟩ => rfl | ⟨2, _⟩ => rfl | ⟨3, _⟩ => rfl)
  rw [e1]
  simp only [e2, expo_apply X Wa ba q k hq hk]
  unfold prob
  rw [val_main_cst_2_apply]
  show Ideal.div _ (Ideal.ofBits .f32 0x00000000#32 + _) = _
  rw [Consts.ofBits_zero, zero_add]

include hv

/-- The reference's attention output. -/
theorem attention_apply (b : Fin 2) (h : Fin 16) (s : Fin 2048) (d : Fin 64) :
    val_main_v28 (F := Ideal) X Wa ba (ix4 b h s d) = attend q k v scaleLit botLit (ix3 (head b h) s d) := by
  rw [val_main_v28_apply, attend_apply]
  have e1 : ∀ j : Fin 2048, lidx_main_v28 (ix4 b h s d) j = ix4 b h s j := fun j =>
    funext fun a => Fin.ext (by match a with | ⟨0, _⟩ => rfl | ⟨1, _⟩ => rfl | ⟨2, _⟩ => rfl | ⟨3, _⟩ => rfl)
  have e2 : ∀ j : Fin 2048, ridx_main_v28 (ix4 b h s d) j = ix4 b h j d := fun j =>
    funext fun a => Fin.ext (by match a with | ⟨0, _⟩ => rfl | ⟨1, _⟩ => rfl | ⟨2, _⟩ => rfl | ⟨3, _⟩ => rfl)
  simp only [e1, e2, prob_apply X Wa ba q k hq hk, ← hv]

end Attention

/-! ## The merge and the output projection -/

theorem merged_apply (b : Fin 2) (h : Fin 16) (s : Fin 2048) (d : Fin 64) :
    val_main_v30 (F := Ideal) X Wa ba (ix3 b s (feat h d)) = val_main_v28 (F := Ideal) X Wa ba (ix4 b h s d) := by
  unfold val_main_v30 val_main_v29
  generalize val_main_v28 (F := Ideal) X Wa ba = y
  exact merge4_apply y _ _ b h s d

theorem out_apply (Wp : (⟨S1024x1024, .f32⟩ : BufTy).Contents (Elt Ideal)) (bp : (⟨S1024, .f32⟩ : BufTy).Contents (Elt Ideal))
    (b : Fin 2) (s : Fin 2048) (e : Fin 1024) :
    val_main_v34 (F := Ideal) X Wa ba Wp bp (ix3 b s e)
      = (∑ k : Fin 1024, val_main_v30 (F := Ideal) X Wa ba (ix3 b s k) * Wp (ix2 k e)) + bp (ix1 e) := by
  rw [val_main_v34_apply, val_main_v31_apply, val_main_v33_apply, val_main_v32_apply]
  have e1 : ∀ k : Fin 1024, lidx_main_v31 (ix3 b s e) k = ix3 b s k := fun k =>
    funext fun a => Fin.ext (by match a with | ⟨0, _⟩ => rfl | ⟨1, _⟩ => rfl | ⟨2, _⟩ => rfl)
  have e2 : ∀ k : Fin 1024, ridx_main_v31 (ix3 b s e) k = ix2 k e := fun k =>
    funext fun a => Fin.ext (by match a with | ⟨0, _⟩ => rfl | ⟨1, _⟩ => rfl)
  have e3 : idx_main_v32 (idx_main_v33 (ix3 b s e)) = ix1 e :=
    funext fun a => Fin.ext (by match a with | ⟨0, _⟩ => rfl)
  simp only [e1, e2, e3]
  rfl

end Cert.ReferenceIdeal.Stages

end
-- ==== Proof.Bridge.lean ====
import proofs.«108650_j15891378995335_1_alg».proof.Proof.Run
import proofs.«108650_j15891378995335_1_alg».proof.Proof.HostFold
import proofs.«108650_j15891378995335_1_alg».proof.Proof.ProjQkv
import proofs.«108650_j15891378995335_1_alg».proof.Proof.AttnArray
import proofs.«108650_j15891378995335_1_alg».proof.Proof.ProjOut
import proofs.«108650_j15891378995335_1_alg».proof.Proof.Layout
import proofs.«108650_j15891378995335_1_alg».proof.Proof.RefRead

/-!
The kernel program's result is the reference's, index by index.

Read back through the boundaries, the result at `(b, s, e)` is the output projection of the merged attention
output at row `b · 2048 + s`; the merged output at feature `h · 64 + d` is attention at head `b · 16 + h`, position
`s`, feature `d`; attention is taken over the three head arrays, which at `(b · 16 + h, s, d)` hold the fused projection at
row `b · 2048 + s` and column `off + h · 64 + d`; and the fused projection is taken over the input's rows flattened.
The reference computes the same sums at `(b, s, ·)` and `(b, h, s, ·)`, so the two agree stage by stage: the
projections term by term, the head arrays by the layout lemmas, attention because it is one function of the head arrays
on both sides (the reference's division by the square root of 64 being the kernel's multiplication by 0.125).
-/

set_option maxRecDepth 16384

noncomputable section

namespace Cert.Bridge

open Cert.KernelIdeal Cert.KernelIdeal.Gen Idealize.ShloMosaic Idealize.ShloMosaic.TcCoe Idealize.ShloMosaic.ValueIdx
open Idealize.SL.Sem
open Cert.Attn Cert.Attn.Layout
open Cert.ReferenceIdeal.Read (val_main_v3 val_main_v8 val_main_v10 val_main_v12 val_main_v28 val_main_v30 val_main_v34)

variable (m : (ℓ : Loc nD τ sig) → Buf (Elt Ideal) ℓ) (ρ : Dev nD → PrngReg)

/-- The fused projection the first region leaves, at row `b · 2048 + s`, is the reference's at `(b, s)`. -/
theorem qkv_eq (c : Dev nD) (b : Fin 2) (s : Fin 2048) (f : Fin 3072) :
    (dat0 (V1 m ρ) c).arrAt 3 cfg0.N (ix2 (row b s) f)
      = val_main_v3 (F := Ideal) (m ((c : Thread nD τ).loc main_arg0)) (m ((c : Thread nD τ).loc main_arg1)) (m ((c : Thread nD τ).loc main_arg2)) (ix3 b s f) := by
  rw [Qkv.final (V1 m ρ) c, Cert.ReferenceIdeal.Stages.qkv_apply]
  show linear (M := 4096) (K := 1024) (N := 3072) (V1 m ρ c main_v0) (V1 m ρ c main_arg1) (V1 m ρ c main_arg2) (ix2 (row b s) f) = _
  rw [linear_apply, Fold.V1_main_arg1, Fold.V1_main_arg2, Fold.V1_main_v0]
  refine congrArg₂ (· + ·) (Finset.sum_congr rfl fun k _ => ?_) rfl
  refine congrArg₂ (· * ·) ?_ rfl
  exact flatten_apply _ _ b s k

/-- A head array the second region reads, at `(b · 16 + h, s, d)`, is the reference's at `(b, h, s, d)`. -/
theorem q_eq (c : Dev nD) (b : Fin 2) (h : Fin 16) (s : Fin 2048) (d : Fin 64) :
    V3 m ρ c main_v7 (ix3 (head b h) s d)
      = val_main_v8 (F := Ideal) (m ((c : Thread nD τ).loc main_arg0)) (m ((c : Thread nD τ).loc main_arg1)) (m ((c : Thread nD τ).loc main_arg2)) (ix4 b h s d) := by
  rw [Fold.V3_main_v7, Cert.ReferenceIdeal.Stages.q_apply]
  exact (split_apply 0 (by omega) _ _ _ _ _ b h s d).trans (qkv_eq m ρ c b s _)

theorem k_eq (c : Dev nD) (b : Fin 2) (h : Fin 16) (s : Fin 2048) (d : Fin 64) :
    V3 m ρ c main_v10 (ix3 (head b h) s d)
      = val_main_v10 (F := Ideal) (m ((c : Thread nD τ).loc main_arg0)) (m ((c : Thread nD τ).loc main_arg1)) (m ((c : Thread nD τ).loc main_arg2)) (ix4 b h s d) := by
  rw [Fold.V3_main_v10, Cert.ReferenceIdeal.Stages.k_apply]
  exact (split_apply 1024 (by omega) _ _ _ _ _ b h s d).trans (qkv_eq m ρ c b s _)

theorem v_eq (c : Dev nD) (b : Fin 2) (h : Fin 16) (s : Fin 2048) (d : Fin 64) :
    V3 m ρ c main_v13 (ix3 (head b h) s d)
      = val_main_v12 (F := Ideal) (m ((c : Thread nD τ).loc main_arg0)) (m ((c : Thread nD τ).loc main_arg1)) (m ((c : Thread nD τ).loc main_arg2)) (ix4 b h s d) := by
  rw [Fold.V3_main_v13, Cert.ReferenceIdeal.Stages.v_apply]
  exact (split_apply 2048 (by omega) _ _ _ _ _ b h s d).trans (qkv_eq m ρ c b s _)

/-- The attention output the second region leaves, at `(b · 16 + h, s, d)`, is the reference's at `(b, h, s, d)`. -/
theorem attn_eq (c : Dev nD) (b : Fin 2) (h : Fin 16) (s : Fin 2048) (d : Fin 64) :
    (dat1 (V3 m ρ) c).arrAt 3 cfg1.N (ix3 (head b h) s d)
      = val_main_v28 (F := Ideal) (m ((c : Thread nD τ).loc main_arg0)) (m ((c : Thread nD τ).loc main_arg1)) (m ((c : Thread nD τ).loc main_arg2)) (ix4 b h s d) := by
  rw [Attention.final (V3 m ρ) c]
  exact (Cert.ReferenceIdeal.Stages.attention_apply _ _ _ (V3 m ρ c main_v7) (V3 m ρ c main_v10) (V3 m ρ c main_v13)
    (q_eq m ρ c) (k_eq m ρ c) (v_eq m ρ c) b h s d).symm

/-- The merged attention output the third region reads, at row `b · 2048 + s`, is the reference's at `(b, s)`. -/
theorem merged_eq (c : Dev nD) (b : Fin 2) (s : Fin 2048) (k : Fin 1024) :
    V5 m ρ c main_v17 (ix2 (row b s) k)
      = val_main_v30 (F := Ideal) (m ((c : Thread nD τ).loc main_arg0)) (m ((c : Thread nD τ).loc main_arg1)) (m ((c : Thread nD τ).loc main_arg2)) (ix3 b s k) := by
  obtain ⟨h, d, rfl⟩ := exists_feat k
  rw [Fold.V5_main_v17, Cert.ReferenceIdeal.Stages.merged_apply]
  exact (merge_apply _ _ _ _ b h s d).trans (attn_eq m ρ c b h s d)

/-- The program's result buffer holds the reference's result of the launch arguments. -/
theorem kernel_value (c : Dev nD) :
    W7 m ρ c (Proc.devRef .tc main_v19)
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  rw [Fold.W7_main_v19, OutProj.final (V5 m ρ) c]
  funext i
  obtain ⟨b, s, e, rfl⟩ : ∃ (b : Fin 2) (s : Fin 2048) (e : Fin 1024), i = ix3 b s e := ⟨i 0, i 1, i 2, eq_ix3 i⟩
  refine (unflatten_apply _ _ b s e).trans ?_
  show linear (M := 4096) (K := 1024) (N := 1024) (V5 m ρ c main_v17) (V5 m ρ c main_arg3) (V5 m ρ c main_arg4) (ix2 (row b s) e) = _
  rw [linear_apply, Cert.ReferenceIdeal.Stages.out_apply, Fold.V5_main_arg3, Fold.V5_main_arg4]
  refine congrArg₂ (· + ·) (Finset.sum_congr rfl fun k _ => ?_) rfl
  exact congrArg₂ (· * ·) (merged_eq m ρ c b s k) rfl

end Cert.Bridge

end
-- ==== Proof.lean ====
/-
  Multi-head attention over a batch of 2 sequences of 2048 positions with 1024 features and 16 heads of 64: a fused
  query/key/value projection, softmax attention per head, and an output projection. The kernel program runs the two
  projections and the attention as three tiled kernels on rows, heads and positions flattened (4096 rows, 32 heads),
  with reshapes, slices and transposes between them; the reference computes the same on the unflattened arrays.

  Over the extended reals the two programs compute one function of the five argument arrays. Each kernel's blocks are
  restrictions of one whole-array function (rows times weights plus bias; attention of a head's queries against its keys
  and values) and tile its result. The re-layouts between the kernels move row `b · 2048 + s` to `(b, s)`, head
  `b · 16 + h` to `(b, h)` and feature `h · 64 + d` to `(h, d)`. The one arithmetic difference is the score scale: the
  kernel multiplies by 0.125, the reference divides by the square root of 64, which agree on every extended real. No
  law used needs the inputs finite, so the precondition is never opened.

  The three frames: the kernel program's at both instances are its region-by-region frame; the reference's is its run
  with the result dropped. The idealization rewrote no operation, so there is nothing to preserve.
-/
import proofs.«108650_j15891378995335_1_alg».proof.Defs
import proofs.«108650_j15891378995335_1_alg».proof.Proof.Gen.Kernel
import proofs.«108650_j15891378995335_1_alg».proof.Proof.Gen.Kernel.Skeleton
import proofs.«108650_j15891378995335_1_alg».proof.Proof.Gen.Kernel.Launch
import proofs.«108650_j15891378995335_1_alg».proof.Proof.Gen.Kernel.Points
import proofs.«108650_j15891378995335_1_alg».proof.Proof.Gen.Kernel.Frame
import proofs.«108650_j15891378995335_1_alg».proof.Proof.Gen.KernelIdeal
import proofs.«108650_j15891378995335_1_alg».proof.Proof.Gen.KernelIdeal.Skeleton
import proofs.«108650_j15891378995335_1_alg».proof.Proof.Gen.KernelIdeal.Launch
import proofs.«108650_j15891378995335_1_alg».proof.Proof.Gen.KernelIdeal.Points
import proofs.«108650_j15891378995335_1_alg».proof.Proof.Gen.KernelIdeal.Frame
import proofs.«108650_j15891378995335_1_alg».proof.Proof.Gen.ReferenceIdeal
import proofs.«108650_j15891378995335_1_alg».proof.Proof.Gen.ReferenceIdeal.Run
import proofs.«108650_j15891378995335_1_alg».proof.Proof.Gen.ReferenceIdeal.Read
import proofs.«108650_j15891378995335_1_alg».proof.Proof.Gen.Pre_finite_inputs
import proofs.«108650_j15891378995335_1_alg».proof.Proof.Run
import proofs.«108650_j15891378995335_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result: the kernel program's
    result buffer holds the reference's result function of its own launch arguments, and the reference's run ends at
    that function of arguments that are the same arrays. -/
theorem algebraic : Cert.algebraic_KernelIdeal_ReferenceIdeal := by
  intro m ρ m' ρ' _ hagree
  refine ⟨fun c => Cert.KernelIdeal.Gen.W7 m ρ c (Proc.devRef .tc Cert.KernelIdeal.main_v19),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1, (hagree c).2.2.2.2]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
